-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S8 : Shape := ⟨1, ![8]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16x4096x768 .f32) (main_arg1 : FVec F S8 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S16x4096x768 : Shape := ⟨3, ![16, 4096, 768]⟩
abbrev S8 : Shape := ⟨1, ![8]⟩
abbrev S16x4096x8 : Shape := ⟨3, ![16, 4096, 8]⟩
abbrev S1x4096x768 : Shape := ⟨3, ![1, 4096, 768]⟩
abbrev S1x4096x8 : Shape := ⟨3, ![1, 4096, 8]⟩
abbrev S1x1x8 : Shape := ⟨3, ![1, 1, 8]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x768, .f32⟩
  | .hbm, ⟨1, _⟩ => ⟨S8, .f32⟩
  | .hbm, ⟨2, _⟩ => ⟨S16x4096x8, .f32⟩
  | .local _ .vmem, ⟨0, _⟩ => ⟨S1x4096x768, .f32⟩
  | .local _ .vmem, ⟨1, _⟩ => ⟨S1x4096x768, .f32⟩
  | .local _ .vmem, ⟨2, _⟩ => ⟨S8, .f32⟩
  | .local _ .vmem, ⟨3, _⟩ => ⟨S1x4096x8, .f32⟩
  | .local _ .vmem, ⟨4, _⟩ => ⟨S1x4096x8, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4096x768_S1x4096x8_0_0_0 : ∀ a, (![0, 0, 0] : Fin 3 → Nat) a + S1x4096x8.size a ≤ S1x4096x768.size a
  h_S1x4096x8 : 0 < S1x4096x8.numel
  inb_S8_S8_0 : ∀ a, (![0] : Fin 1 → Nat) a + S8.size a ≤ S8.size a
  h_S8 : 0 < S8.numel
  shapeCasts_S8_S1x1x8 : S8.ShapeCasts S1x1x8
  broadcasts_S1x1x8_S1x4096x8 : S1x1x8.Broadcasts S1x4096x8
  inb_S1x4096x8_S1x4096x8_0_0_0 : ∀ a, (![0, 0, 0] : Fin 3 → Nat) a + S1x4096x8.size a ≤ S1x4096x8.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x768.size a ≤ S16x4096x768.size a
  hwx0_0 : ∀ i : grid0.Coords, EltTy.bits .f32 = 32 ∨ (Rect.block (s := S16x4096x768) S1x4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x8.size a ≤ S16x4096x8.size a
  hwx0_2 : ∀ i : grid0.Coords, EltTy.bits .f32 = 32 ∨ (Rect.block (s := S16x4096x8) S1x4096x8.size (cc0_transform_2 i) (hinb0_2 i)).WholeWords (EltTy.packing .f32)

variable [Facts₀]

abbrev win0_0 : Pipeline.Window sig grid0 :=
  Pipeline.Window.ofSpec (Memref.whole main_arg0) S1x4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S8 : Shape := ⟨1, ![8]⟩
abbrev S16x4096x8 : Shape := ⟨3, ![16, 4096, 8]⟩
abbrev S1x1x8 : Shape := ⟨3, ![1, 1, 8]⟩

abbrev nBuf : Space → Nat
  | .hbm => 8
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S8, .f32⟩
  | .hbm, ⟨2, _⟩ => ⟨S16x4096x8, .f32⟩
  | .hbm, ⟨3, _⟩ => ⟨S16x4096x8, .f32⟩
  | .hbm, ⟨4, _⟩ => ⟨S8, .f32⟩
  | .hbm, ⟨5, _⟩ => ⟨S1x1x8, .f32⟩
  | .hbm, ⟨6, _⟩ => ⟨S16x4096x8, .f32⟩
  | .hbm, ⟨7, _⟩ => ⟨S16x4096x8, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S16x4096x768_S16x4096x8_0_0_0 : S16x4096x768.Slices ![0, 0, 0] S16x4096x8
  bcast_S8_S1x1x8_2 : S8.BroadcastsInDim S1x1x8 (![2] : Fin 1 → Fin S1x1x8.rank)
  bcast_S1x1x8_S16x4096x8_0_1_2 : S1x1x8.BroadcastsInDim S16x4096x8 (![0, 1, 2] : Fin 3 → Fin S16x4096x8.rank)

variable [Facts₀]

class Facts : Prop extends Facts₀ where

variable [Facts]
-- ==== Proof.Expectation.lean ====
/-
  The quantity both programs compute, written once over the whole arrays.

  Each token carries 768 embedding channels, of which only the first eight are used: channel `w` (`w < 8`) is the
  rotation angle fed to wire `w` of an eight-wire circuit with no entangling gates. Wire `w` starts in |0⟩, is rotated
  about X by the token's angle `x[b, s, w]` and about Y by the trained angle `θ[w]`, and Pauli-Z is measured. The wires
  being independent, the expectation factors:

      ⟨Z_w⟩(b, s) = cos (x[b, s, w]) · cos (θ[w]).

  Over the extended reals the cosine is the real cosine on finite angles and a fixed value at ±∞, and the product is the
  extended reals' product; nothing below needs the angles finite, because the two programs apply the same two operations
  to the same two entries, so no algebraic law is used at all.
-/
import Idealize.ShloMosaic.PureOps.Ideal
import Idealize.ShloMosaic.Lib.ValueIdx

noncomputable section

namespace Cert.Expectation

open Idealize.ShloMosaic Idealize.ShloMosaic.ValueIdx

/-- Wire `w` of eight reads embedding channel `w` of 768. -/
abbrev channel (w : Fin 8) : Fin 768 := ⟨w.val, Nat.lt_of_lt_of_le w.isLt (by decide)⟩

/-- The Pauli-Z expectation of every wire of every token: entry `(b, s, w)` is
    `cos (x[b, s, channel w]) · cos (θ[w])`. -/
def pauliZ (x : (⟨3, ![16, 4096, 768]⟩ : Shape).Idx → EReal) (θ : (⟨1, ![8]⟩ : Shape).Idx → EReal) :
    (⟨3, ![16, 4096, 8]⟩ : Shape).Idx → EReal :=
  fun i => Ideal.cos (x (ix3 (i 0) (i 1) (channel (i 2)))) * Ideal.cos (θ (ix1 (i 2)))

/-- The entry at given coordinates. -/
theorem pauliZ_apply (x : (⟨3, ![16, 4096, 768]⟩ : Shape).Idx → EReal) (θ : (⟨1, ![8]⟩ : Shape).Idx → EReal)
    (b : Fin 16) (s : Fin 4096) (w : Fin 8) :
    pauliZ x θ (ix3 b s w) = Ideal.cos (x (ix3 b s (channel w))) * Ideal.cos (θ (ix1 w)) := rfl

end Cert.Expectation

end
-- ==== Proof.KernelValue.lean ====
/-
  The kernel, read one entry at a time, is the Pauli-Z expectation.

  The grid has one point per batch element. At point `t` the activations' window is the whole `4096 × 768` slab of
  batch element `t`, the angles' window is all eight angles, and the output window is the whole `4096 × 8` slab of
  batch element `t`. The body loads the leading `4096 × 8` corner of its slab (channels 0 to 7 of every token), takes its
  cosine, multiplies by the cosine of the angles broadcast along the tokens, and stores the product over the whole
  output block. So entry `(0, s, w)` of what point `t` writes back is `cos (x[t, s, w]) · cos (θ[w])`: block `t` of
  the expectation. The sixteen output blocks tile the result (entry `(b, s, w)` lies in block `b`), so after the run
  the result array is the expectation everywhere.
-/
import proofs.«158936_j65481071402938_1_alg».proof.Proof.Gen.KernelIdeal.Value
import proofs.«158936_j65481071402938_1_alg».proof.Proof.Expectation

noncomputable section

namespace Cert.KernelIdeal.Slabs

open Cert.KernelIdeal Cert.KernelIdeal.Gen Idealize.ShloMosaic Idealize.ShloMosaic.TcCoe Idealize.SL.Sem
open Idealize.ShloMosaic.Pipeline (Dat)
open Idealize.ShloMosaic.ValueIdx Cert.Expectation

variable (m : (ℓ : Loc nD τ sig) → Buf (Elt Ideal) ℓ) (ρ : Dev nD → PrngReg)

/-! ## One block -/

/-- What the body leaves in its output block, entry by entry, from the activations' slab `xs` and the angles `θ`:
    token `s`, wire `w` holds `cos (xs[0, s, w]) · cos (θ[w])`. The load of the slab's corner starts at the origin with
    unit strides, so corner entry `(0, s, w)` is slab entry `(0, s, w)`; the angles are loaded whole. -/
theorem block_apply (xs : Vec Ideal S1x4096x768 .f32) (θ : Vec Ideal S8 .f32) (y : S1x4096x8.Idx) :
    out0_2 xs θ y = Ideal.cos (xs (ix3 (0 : Fin 1) (y 1) (channel (y 2)))) * Ideal.cos (θ (ix1 (y 2))) := by
  unfold out0_2
  rw [Value.canon2_eq]
  have hs : r0_0.idx (Value.ix2_0 y) = ix3 (0 : Fin 1) (y 1) (channel (y 2)) :=
    funext fun a => Fin.ext (by
      match a with
      | ⟨0, _⟩ => show 0 + 1 * 0 = 0; rfl
      | ⟨1, _⟩ => show 0 + 1 * (y 1).val = (y 1).val; omega
      | ⟨2, _⟩ => show 0 + 1 * (y 2).val = (y 2).val; omega)
  have hθ : r0_1.idx (Value.ix2_1 y) = ix1 (y 2) :=
    funext fun a => Fin.ext (by
      match a with
      | ⟨0, _⟩ => show 0 + 1 * (y 2).val = (y 2).val; omega)
  show Ideal.cos (xs (r0_0.idx (Value.ix2_0 y))) * Ideal.cos (θ (r0_1.idx (Value.ix2_1 y))) = _
  rw [hs, hθ]
  rfl

/-! ## Which slab each window is on -/

/-- The printed index maps over the sixteen grid points: at point `t` the activations' and the output's windows are on
    slab `t` along the batch axis and at block 0 along the other two; the angles' window is always block 0. -/
theorem slab_of_point : ∀ t : Fin cfg0.N,
    win0_0.index t (0 : Fin 3) = t.val ∧ win0_0.index t (1 : Fin 3) = 0 ∧ win0_0.index t (2 : Fin 3) = 0
    ∧ win0_1.index t (0 : Fin 1) = 0
    ∧ win0_2.index t (0 : Fin 3) = t.val ∧ win0_2.index t (1 : Fin 3) = 0 ∧ win0_2.index t (2 : Fin 3) = 0 :=
  (by decide +kernel : ∀ t : Fin grid0.N, _)

/-! ## What a point writes back -/

/-- Point `t` writes back block `t` of the expectation of the argument arrays. -/
theorem flushed_eq (c : Dev nD) (t : Fin cfg0.N) :
    (dats m 0 c).flushed 2 t
      = ((cfg0.win 2).blk t).view.read (Elt Ideal) (pauliZ (V m c main_arg0) (V m c main_arg1)) := by
  rw [Value.flushed2]
  obtain ⟨a0, a1, a2, b0, o0, o1, o2⟩ := slab_of_point t
  funext j
  have hj0 : (j 0).val < 1 := (j 0).isLt
  have hj1 : (j 1).val < 4096 := (j 1).isLt
  have hj2 : (j 2).val < 8 := (j 2).isLt
  refine (block_apply (iblk m c 0 t) (iblk m c 1 t) j).trans ?_
  show Ideal.cos (V m c main_arg0 (((cfg0.win 0).blk t).view.emb (ix3 (0 : Fin 1) (j 1) (channel (j 2)))))
        * Ideal.cos (V m c main_arg1 (((cfg0.win 1).blk t).view.emb (ix1 (j 2))))
      = pauliZ (V m c main_arg0) (V m c main_arg1) (((cfg0.win 2).blk t).view.emb j)
  have hx : ((cfg0.win 0).blk t).view.emb (ix3 (0 : Fin 1) (j 1) (channel (j 2)))
      = ix3 ((((cfg0.win 2).blk t).view.emb j) 0) ((((cfg0.win 2).blk t).view.emb j) 1) (channel ((((cfg0.win 2).blk t).view.emb j) 2)) := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 4096 + 1 * (j 1).val = win0_2.index t (1 : Fin 3) * 4096 + 1 * (j 1).val; omega
    | ⟨2, _⟩ => show win0_0.index t (2 : Fin 3) * 768 + 1 * (j 2).val = win0_2.index t (2 : Fin 3) * 8 + 1 * (j 2).val; omega
  have hθ : ((cfg0.win 1).blk t).view.emb (ix1 (j 2)) = ix1 ((((cfg0.win 2).blk t).view.emb j) 2) := by
    funext a; apply Fin.ext
    match a with
    | ⟨0, _⟩ => show win0_1.index t (0 : Fin 1) * 8 + 1 * (j 2).val = win0_2.index t (2 : Fin 3) * 8 + 1 * (j 2).val; omega
  rw [hx, hθ]
  rfl

/-! ## The blocks tile the result -/

/-- An entry of the result is in point `t`'s block iff each coordinate is in the block's range on its axis. -/
theorem mem_block (t : Fin cfg0.N) (i : S16x4096x8.Idx) :
    i ∈ ((cfg0.win 2).blk t).view.set ↔ ∀ a : Fin 3, win0_2.index t a * S1x4096x8.size a ≤ (i a).val
      ∧ (i a).val < win0_2.index t a * S1x4096x8.size a + S1x4096x8.size a := by
  show i ∈ ((View.whole main_v0).slice (win0_2.rect t)).set ↔ _
  rw [View.set_slice_whole, Rect.mem_set_unit]
  exact Iff.rfl

/-- Entry `(b, s, w)` lies in the block of point `b`, which is written back. -/
theorem tiled (i : S16x4096x8.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 8 := (i 2).isLt
  refine ⟨⟨(i 0).val, hi0⟩, flush0_2 _, ?_⟩
  obtain ⟨-, -, -, -, o0, o1, o2⟩ := slab_of_point ⟨(i 0).val, hi0⟩
  rw [mem_block]
  intro a
  match a with
  | ⟨0, _⟩ =>
    show win0_2.index ⟨(i 0).val, hi0⟩ (0 : Fin 3) * 1 ≤ (i 0).val ∧ (i 0).val < win0_2.index ⟨(i 0).val, hi0⟩ (0 : Fin 3) * 1 + 1
    rw [o0]; show (i 0).val * 1 ≤ (i 0).val ∧ (i 0).val < (i 0).val * 1 + 1; omega
  | ⟨1, _⟩ =>
    show win0_2.index ⟨(i 0).val, hi0⟩ (1 : Fin 3) * 4096 ≤ (i 1).val ∧ (i 1).val < win0_2.index ⟨(i 0).val, hi0⟩ (1 : Fin 3) * 4096 + 4096
    rw [o1]; omega
  | ⟨2, _⟩ =>
    show win0_2.index ⟨(i 0).val, hi0⟩ (2 : Fin 3) * 8 ≤ (i 2).val ∧ (i 2).val < win0_2.index ⟨(i 0).val, hi0⟩ (2 : Fin 3) * 8 + 8
    rw [o2]; omega

/-! ## The result array, and the run -/

/-- After the run the result array is the expectation of the argument arrays as launched. -/
theorem result (c : Dev nD) :
    (dats m 0 c).arrAt 2 cfg0.N
      = pauliZ (m ((c : Thread nD τ).loc main_arg0)) (m ((c : Thread nD τ).loc main_arg1)) :=
  (dats m 0 c).arrAt_eq_of_cover 2 (pauliZ (V m c main_arg0) (V m c main_arg1)) (fun t _ => flushed_eq m c t) tiled

/-- Every weakly fair execution of the idealized kernel ends with the result at the expectation and the arguments
    unchanged. -/
theorem run : θ_run defs (onTc (τ := τ) (main (F := Ideal))) ⟨m, fun _ => 0, ρ⟩ fun r => ∀ c : Dev nD,
      r.2.mem ((c : Thread nD τ).loc main_v0)
        = pauliZ (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Value.run_blocks m ρ)

end Cert.KernelIdeal.Slabs

end
-- ==== Proof.ReferenceValue.lean ====
/-
  The reference, read one entry at a time, is the Pauli-Z expectation.

  The reference slices the first eight channels out of the 768, takes the cosine of the slice, takes the cosine of the
  eight trained angles, broadcasts those along batch and sequence, and multiplies. At entry `(b, s, w)` the slice reads
  `x[b, s, w]` (all offsets are zero) and the two broadcasts read `θ[w]` (the only non-unit axis carried through is the
  last), so the entry is `cos (x[b, s, w]) · cos (θ[w])`; on the extended reals the host's cosine is the same function
  as the one in the specification.
-/
import proofs.«158936_j65481071402938_1_alg».proof.Proof.Gen.ReferenceIdeal.Read
import proofs.«158936_j65481071402938_1_alg».proof.Proof.Expectation

noncomputable section

namespace Cert.ReferenceIdeal.RefValue

open Cert.ReferenceIdeal Cert.ReferenceIdeal.Gen Cert.ReferenceIdeal.Read Idealize.ShloMosaic Idealize.ShloMosaic.ValueIdx
open Cert.Expectation

/-- Where the slice reads the activations: same batch, same token, channel `w` for wire `w`. -/
theorem slice_index (i : S16x4096x8.Idx) : idx_main_v0 i = ix3 (i 0) (i 1) (channel (i 2)) :=
  funext fun a => Fin.ext (by match a with | ⟨0, _⟩ => rfl | ⟨1, _⟩ => rfl | ⟨2, _⟩ => rfl)

/-- Where the two broadcasts read the trained angles: wire `w`, whatever the batch and the token. -/
theorem angle_index (i : S16x4096x8.Idx) : idx_main_v3 (idx_main_v4 i) = ix1 (i 2) :=
  funext fun a => Fin.ext (by match a with | ⟨0, _⟩ => rfl)

/-- The reference's result, as a function of its two arguments, is the Pauli-Z expectation. -/
theorem result_eq (x : (⟨S16x4096x768, .f32⟩ : BufTy).Contents (Elt Ideal)) (θ : (⟨S8, .f32⟩ : BufTy).Contents (Elt Ideal)) :
    val_main_v5 (F := Ideal) x θ = pauliZ x θ := by
  funext i
  rw [val_main_v5_apply, val_main_v1_apply, val_main_v0_apply, val_main_v4_apply, val_main_v3_apply, val_main_v2_apply,
    slice_index, angle_index]
  rfl

end Cert.ReferenceIdeal.RefValue

end
-- ==== Proof.lean ====
/-
  The kernel and its reference both compute, for every token and every one of eight wires, the Pauli-Z expectation
  `cos (x[b, s, w]) · cos (θ[w])` of an RX–RY circuit on |0⟩, from the first eight of the 768 embedding channels and
  eight trained angles (Proof/Expectation.lean states it over the whole arrays).

  The kernel walks the batch axis, one `4096 × 768` slab per grid point, and writes one `4096 × 8` block per point; read
  entry by entry, block `t` is block `t` of the expectation, and the sixteen blocks tile the result
  (Proof/KernelValue.lean). The reference slices, takes cosines, broadcasts and multiplies over the whole arrays; read
  entry by entry it is the same product (Proof/ReferenceValue.lean). Neither side reorders or regroups anything, so the
  two results agree on all extended reals and the finiteness of the inputs is never used.

  The three frames are the generated runs: the kernel's at both instances, and the reference's run with its result
  dropped. The idealization rewrote no operation, so there is nothing to preserve.
-/
import proofs.«158936_j65481071402938_1_alg».proof.Defs
import proofs.«158936_j65481071402938_1_alg».proof.Proof.Gen.Kernel
import proofs.«158936_j65481071402938_1_alg».proof.Proof.Gen.Kernel.Skeleton
import proofs.«158936_j65481071402938_1_alg».proof.Proof.Gen.Kernel.Launch
import proofs.«158936_j65481071402938_1_alg».proof.Proof.Gen.Kernel.Points
import proofs.«158936_j65481071402938_1_alg».proof.Proof.Gen.Kernel.Frame
import proofs.«158936_j65481071402938_1_alg».proof.Proof.Gen.KernelIdeal
import proofs.«158936_j65481071402938_1_alg».proof.Proof.Gen.KernelIdeal.Skeleton
import proofs.«158936_j65481071402938_1_alg».proof.Proof.Gen.KernelIdeal.Launch
import proofs.«158936_j65481071402938_1_alg».proof.Proof.Gen.KernelIdeal.Points
import proofs.«158936_j65481071402938_1_alg».proof.Proof.Gen.KernelIdeal.Frame
import proofs.«158936_j65481071402938_1_alg».proof.Proof.Gen.ReferenceIdeal
import proofs.«158936_j65481071402938_1_alg».proof.Proof.Gen.Pre_finite_inputs
import proofs.«158936_j65481071402938_1_alg».proof.Proof.Gen.KernelIdeal.Value
import proofs.«158936_j65481071402938_1_alg».proof.Proof.Gen.ReferenceIdeal.Run
import proofs.«158936_j65481071402938_1_alg».proof.Proof.Gen.ReferenceIdeal.Read
import proofs.«158936_j65481071402938_1_alg».proof.Proof.KernelValue
import proofs.«158936_j65481071402938_1_alg».proof.Proof.ReferenceValue
import Idealize.ShloMosaic.Adequacy
import Idealize.ShloMosaic.Init

noncomputable section

namespace Cert.Proof

open Idealize.ShloMosaic Idealize.SL.Sem

/-- The word-level kernel runs to the end without a fault and leaves its arguments alone. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference's run, its result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- From memories that agree on the activations and the angles, both programs end with the Pauli-Z expectation of those
    arrays in their result: the kernel block by block, the reference entry by entry. -/
theorem algebraic : Cert.algebraic_KernelIdeal_ReferenceIdeal := by
  intro m ρ m' ρ' _ hagree
  refine ⟨_, Cert.KernelIdeal.Slabs.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
